-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x50x16 : Shape := ⟨3, ![16384, 50, 16]⟩
abbrev S16384x544 : Shape := ⟨2, ![16384, 544]⟩
abbrev S_ : Shape := ⟨0, ![]⟩

class Facts : Prop where
  bcast_S_S16384x50x16 : S_.BroadcastsInDim S16384x50x16 (![] : Fin 0 → Fin S16384x50x16.rank)
  reducesTo_S16384x50x16_S_d0_1_2 : S16384x50x16.ReducesTo [0, 1, 2] S_
  h_S_ : 0 < S_.numel
  bcast_S_S16384x544 : S_.BroadcastsInDim S16384x544 (![] : Fin 0 → Fin S16384x544.rank)
  reducesTo_S16384x544_S_d0_1 : S16384x544.ReducesTo [0, 1] S_

variable [Facts]

def fn {F : FTy → Type} [FloatOps F] (main_arg0 : FVec F S16384x50x16 .f32) (main_arg1 : FVec F S16384x544 .f32) : IVec S_ 1 :=
  let main_v0 : FVec F S16384x50x16 .f32 := Host.absf main_arg0
  let main_cst : FVec F S_ .f32 := constant S_ .f32 0x7F800000#32
  let main_v1 : FVec F S16384x50x16 .f32 := broadcastInDim S16384x50x16 ![] bcast_S_S16384x50x16 main_cst
  let main_v2 : IVec S16384x50x16 1 := cmpf .olt main_v0 main_v1
  let main_c : IVec S_ 1 := constantI S_ 1 1#1
  let main_v3 : IVec S_ 1 := (fun x v => Host.reduce IntOp.andi x v reducesTo_S16384x50x16_S_d0_1_2 h_S_) main_v2 main_c
  let main_v4 : FVec F S16384x544 .f32 := Host.absf main_arg1
  let main_cst_0 : FVec F S_ .f32 := constant S_ .f32 0x7F800000#32
  let main_v5 : FVec F S16384x544 .f32 := broadcastInDim S16384x544 ![] bcast_S_S16384x544 main_cst_0
  let main_v6 : IVec S16384x544 1 := cmpf .olt main_v4 main_v5
  let main_c_1 : IVec S_ 1 := constantI S_ 1 1#1
  let main_v7 : IVec S_ 1 := (fun x v => Host.reduce IntOp.andi x v reducesTo_S16384x544_S_d0_1 h_S_) main_v6 main_c_1
  let main_v8 : IVec S_ 1 := andi main_v3 main_v7
  main_v8
-- ==== Kernel.lean ====
abbrev S16384x50x16 : Shape := ⟨3, ![16384, 50, 16]⟩
abbrev S16384x544 : Shape := ⟨2, ![16384, 544]⟩
abbrev S50x16x16384 : Shape := ⟨3, ![50, 16, 16384]⟩
abbrev S544x16384 : Shape := ⟨2, ![544, 16384]⟩
abbrev S50x16x1024 : Shape := ⟨3, ![50, 16, 1024]⟩
abbrev S544x1024 : Shape := ⟨2, ![544, 1024]⟩
abbrev S256x1024 : Shape := ⟨2, ![256, 1024]⟩
abbrev S16x16x1024 : Shape := ⟨3, ![16, 16, 1024]⟩
abbrev S16x1024 : Shape := ⟨2, ![16, 1024]⟩
abbrev S50x1x1024 : Shape := ⟨3, ![50, 1, 1024]⟩
abbrev S1x16x1024 : Shape := ⟨3, ![1, 16, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x50x16, .f32⟩
  | .hbm, ⟨1, _⟩ => ⟨S16384x544, .f32⟩
  | .hbm, ⟨2, _⟩ => ⟨S50x16x16384, .f32⟩
  | .hbm, ⟨3, _⟩ => ⟨S544x16384, .f32⟩
  | .hbm, ⟨4, _⟩ => ⟨S50x16x16384, .f32⟩
  | .hbm, ⟨5, _⟩ => ⟨S16384x50x16, .f32⟩
  | .local _ .vmem, ⟨0, _⟩ => ⟨S50x16x1024, .f32⟩
  | .local _ .vmem, ⟨1, _⟩ => ⟨S50x16x1024, .f32⟩
  | .local _ .vmem, ⟨2, _⟩ => ⟨S544x1024, .f32⟩
  | .local _ .vmem, ⟨3, _⟩ => ⟨S544x1024, .f32⟩
  | .local _ .vmem, ⟨4, _⟩ => ⟨S50x16x1024, .f32⟩
  | .local _ .vmem, ⟨5, _⟩ => ⟨S50x16x1024, .f32⟩
  | _, _ => ⟨S16384x50x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S50x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S50x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S16384x50x16_S50x16x16384_1_2_0 : S16384x50x16.Transposes [1, 2, 0] S50x16x16384
  transposes_S16384x544_S544x16384_1_0 : S16384x544.Transposes [1, 0] S544x16384
  inb_S50x16x1024_S50x16x1024_0_0_0 : ∀ a, (![0, 0, 0] : Fin 3 → Nat) a + S50x16x1024.size a ≤ S50x16x1024.size a
  h_S50x16x1024 : 0 < S50x16x1024.numel
  shapeCasts_S50x16x1024_S50x16x1024 : S50x16x1024.ShapeCasts S50x16x1024
  inb_S544x1024_S256x1024_0_0 : ∀ a, (![0, 0] : Fin 2 → Nat) a + S256x1024.size a ≤ S544x1024.size a
  h_S256x1024 : 0 < S256x1024.numel
  shapeCasts_S256x1024_S256x1024 : S256x1024.ShapeCasts S256x1024
  shapeCasts_S256x1024_S16x16x1024 : S256x1024.ShapeCasts S16x16x1024
  inb_S544x1024_S16x1024_256_0 : ∀ a, (![256, 0] : Fin 2 → Nat) a + S16x1024.size a ≤ S544x1024.size a
  h_S16x1024 : 0 < S16x1024.numel
  shapeCasts_S16x1024_S16x1024 : S16x1024.ShapeCasts S16x1024
  slices_S50x16x1024_o0_0_0_S50x1x1024 : S50x16x1024.Slices ![0, 0, 0] S50x1x1024
  slices_S16x16x1024_o0_0_0_S1x16x1024 : S16x16x1024.Slices ![0, 0, 0] S1x16x1024
  broadcasts_S50x1x1024_S50x16x1024 : S50x1x1024.Broadcasts S50x16x1024
  broadcasts_S1x16x1024_S50x16x1024 : S1x16x1024.Broadcasts S50x16x1024
  slices_S50x16x1024_o0_1_0_S50x1x1024 : S50x16x1024.Slices ![0, 1, 0] S50x1x1024
  slices_S16x16x1024_o1_0_0_S1x16x1024 : S16x16x1024.Slices ![1, 0, 0] S1x16x1024
  slices_S50x16x1024_o0_2_0_S50x1x1024 : S50x16x1024.Slices ![0, 2, 0] S50x1x1024
  slices_S16x16x1024_o2_0_0_S1x16x1024 : S16x16x1024.Slices ![2, 0, 0] S1x16x1024
  slices_S50x16x1024_o0_3_0_S50x1x1024 : S50x16x1024.Slices ![0, 3, 0] S50x1x1024
  slices_S16x16x1024_o3_0_0_S1x16x1024 : S16x16x1024.Slices ![3, 0, 0] S1x16x1024
  slices_S50x16x1024_o0_4_0_S50x1x1024 : S50x16x1024.Slices ![0, 4, 0] S50x1x1024
  slices_S16x16x1024_o4_0_0_S1x16x1024 : S16x16x1024.Slices ![4, 0, 0] S1x16x1024
  slices_S50x16x1024_o0_5_0_S50x1x1024 : S50x16x1024.Slices ![0, 5, 0] S50x1x1024
  slices_S16x16x1024_o5_0_0_S1x16x1024 : S16x16x1024.Slices ![5, 0, 0] S1x16x1024
  slices_S50x16x1024_o0_6_0_S50x1x1024 : S50x16x1024.Slices ![0, 6, 0] S50x1x1024
  slices_S16x16x1024_o6_0_0_S1x16x1024 : S16x16x1024.Slices ![6, 0, 0] S1x16x1024
  slices_S50x16x1024_o0_7_0_S50x1x1024 : S50x16x1024.Slices ![0, 7, 0] S50x1x1024
  slices_S16x16x1024_o7_0_0_S1x16x1024 : S16x16x1024.Slices ![7, 0, 0] S1x16x1024
  slices_S50x16x1024_o0_8_0_S50x1x1024 : S50x16x1024.Slices ![0, 8, 0] S50x1x1024
  slices_S16x16x1024_o8_0_0_S1x16x1024 : S16x16x1024.Slices ![8, 0, 0] S1x16x1024
  slices_S50x16x1024_o0_9_0_S50x1x1024 : S50x16x1024.Slices ![0, 9, 0] S50x1x1024
  slices_S16x16x1024_o9_0_0_S1x16x1024 : S16x16x1024.Slices ![9, 0, 0] S1x16x1024
  slices_S50x16x1024_o0_10_0_S50x1x1024 : S50x16x1024.Slices ![0, 10, 0] S50x1x1024
  slices_S16x16x1024_o10_0_0_S1x16x1024 : S16x16x1024.Slices ![10, 0, 0] S1x16x1024
  slices_S50x16x1024_o0_11_0_S50x1x1024 : S50x16x1024.Slices ![0, 11, 0] S50x1x1024
  slices_S16x16x1024_o11_0_0_S1x16x1024 : S16x16x1024.Slices ![11, 0, 0] S1x16x1024
  slices_S50x16x1024_o0_12_0_S50x1x1024 : S50x16x1024.Slices ![0, 12, 0] S50x1x1024
  slices_S16x16x1024_o12_0_0_S1x16x1024 : S16x16x1024.Slices ![12, 0, 0] S1x16x1024
  slices_S50x16x1024_o0_13_0_S50x1x1024 : S50x16x1024.Slices ![0, 13, 0] S50x1x1024
  slices_S16x16x1024_o13_0_0_S1x16x1024 : S16x16x1024.Slices ![13, 0, 0] S1x16x1024
  slices_S50x16x1024_o0_14_0_S50x1x1024 : S50x16x1024.Slices ![0, 14, 0] S50x1x1024
  slices_S16x16x1024_o14_0_0_S1x16x1024 : S16x16x1024.Slices ![14, 0, 0] S1x16x1024
  slices_S50x16x1024_o0_15_0_S50x1x1024 : S50x16x1024.Slices ![0, 15, 0] S50x1x1024
  slices_S16x16x1024_o15_0_0_S1x16x1024 : S16x16x1024.Slices ![15, 0, 0] S1x16x1024
  shapeCasts_S16x1024_S1x16x1024 : S16x1024.ShapeCasts S1x16x1024
  inb_S544x1024_S256x1024_272_0 : ∀ a, (![272, 0] : Fin 2 → Nat) a + S256x1024.size a ≤ S544x1024.size a
  inb_S544x1024_S16x1024_528_0 : ∀ a, (![528, 0] : Fin 2 → Nat) a + S16x1024.size a ≤ S544x1024.size a
  transposes_S50x16x16384_S16384x50x16_2_0_1 : S50x16x16384.Transposes [2, 0, 1] S16384x50x16
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S50x16x1024.size a ≤ S50x16x16384.size a
  hwx0_0 : ∀ i : grid0.Coords, EltTy.bits .f32 = 32 ∨ (Rect.block (s := S50x16x16384) S50x16x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S544x1024.size a ≤ S544x16384.size a
  hwx0_1 : ∀ i : grid0.Coords, EltTy.bits .f32 = 32 ∨ (Rect.block (s := S544x16384) S544x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S50x16x1024.size a ≤ S50x16x16384.size a
  hwx0_2 : ∀ i : grid0.Coords, EltTy.bits .f32 = 32 ∨ (Rect.block (s := S50x16x16384) S50x16x1024.size (cc0_transform_2 i) (hinb0_2 i)).WholeWords (EltTy.packing .f32)

variable [Facts₀]

abbrev win0_0 : Pipeline.Window sig grid0 :=
  Pipeline.Window.ofSpec (Memref.whole main_v0) S50x16x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S544x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S50x16x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x50x16 : Shape := ⟨3, ![16384, 50, 16]⟩
abbrev S16384x544 : Shape := ⟨2, ![16384, 544]⟩
abbrev S16384x256 : Shape := ⟨2, ![16384, 256]⟩
abbrev S16384x16x16 : Shape := ⟨3, ![16384, 16, 16]⟩
abbrev S16384x16 : Shape := ⟨2, ![16384, 16]⟩
abbrev S16384x1x16 : Shape := ⟨3, ![16384, 1, 16]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S16384x50x16, .f32⟩
  | .hbm, ⟨1, _⟩ => ⟨S16384x544, .f32⟩
  | .hbm, ⟨2, _⟩ => ⟨S16384x256, .f32⟩
  | .hbm, ⟨3, _⟩ => ⟨S16384x16x16, .f32⟩
  | .hbm, ⟨4, _⟩ => ⟨S16384x16, .f32⟩
  | .hbm, ⟨5, _⟩ => ⟨S16384x1x16, .f32⟩
  | .hbm, ⟨6, _⟩ => ⟨S16384x50x16, .f32⟩
  | .hbm, ⟨7, _⟩ => ⟨S16384x50x16, .f32⟩
  | .hbm, ⟨8, _⟩ => ⟨S16384x50x16, .f32⟩
  | .hbm, ⟨9, _⟩ => ⟨S_, .f32⟩
  | .hbm, ⟨10, _⟩ => ⟨S16384x50x16, .f32⟩
  | .hbm, ⟨11, _⟩ => ⟨S16384x50x16, .f32⟩
  | .hbm, ⟨12, _⟩ => ⟨S16384x256, .f32⟩
  | .hbm, ⟨13, _⟩ => ⟨S16384x16x16, .f32⟩
  | .hbm, ⟨14, _⟩ => ⟨S16384x16, .f32⟩
  | .hbm, ⟨15, _⟩ => ⟨S16384x1x16, .f32⟩
  | .hbm, ⟨16, _⟩ => ⟨S16384x50x16, .f32⟩
  | .hbm, ⟨17, _⟩ => ⟨S16384x50x16, .f32⟩
  | .hbm, ⟨18, _⟩ => ⟨S16384x50x16, .f32⟩
  | .hbm, ⟨19, _⟩ => ⟨S_, .f32⟩
  | .hbm, ⟨20, _⟩ => ⟨S16384x50x16, .f32⟩
  | .hbm, ⟨21, _⟩ => ⟨S16384x50x16, .f32⟩
  | _, _ => ⟨S16384x50x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_cst : Ref sig .tc := ⟨.hbm, 9, rfl⟩
abbrev main_call0_v0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_call1_cst : Ref sig .tc := ⟨.hbm, 19, rfl⟩
abbrev main_call1_v0 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  slices_S16384x544_S16384x256_0_0 : S16384x544.Slices ![0, 0] S16384x256
  shapeCasts_S16384x256_S16384x16x16 : S16384x256.ShapeCasts S16384x16x16
  slices_S16384x544_S16384x16_0_256 : S16384x544.Slices ![0, 256] S16384x16
  shapeCasts_S16384x16_S16384x1x16 : S16384x16.ShapeCasts S16384x1x16
  bcast_S16384x1x16_S16384x50x16_0_1_2 : S16384x1x16.BroadcastsInDim S16384x50x16 (![0, 1, 2] : Fin 3 → Fin S16384x50x16.rank)
  bcast_S_S16384x50x16 : S_.BroadcastsInDim S16384x50x16 (![] : Fin 0 → Fin S16384x50x16.rank)
  slices_S16384x544_S16384x256_0_272 : S16384x544.Slices ![0, 272] S16384x256
  slices_S16384x544_S16384x16_0_528 : S16384x544.Slices ![0, 528] S16384x16
  dot_S16384x50x16_S16384x16x16_S16384x50x16_2_1_1_2_0_0_wf : DotDims.WF S16384x50x16 S16384x16x16 S16384x50x16 [2] [1] [1] [2] [0] [0]

variable [Facts₀]

def dot_S16384x50x16_S16384x16x16_S16384x50x16_2_1_1_2_0_0 : DotDims S16384x50x16 S16384x16x16 S16384x50x16 where
  lhsContracting := [2]
  rhsContracting := [1]
  lhsNonContracting := [1]
  rhsNonContracting := [2]
  lhsBatch := [0]
  rhsBatch := [0]
  wf := dot_S16384x50x16_S16384x16x16_S16384x50x16_2_1_1_2_0_0_wf

class Facts : Prop extends Facts₀ where

variable [Facts]
-- ==== Proof.Spec.lean ====
/-
  The mathematics both programs compute, stated once, free of either program's layout.

  One sample carries a row vector `x` of 16 numbers (one of the sample's 50 rows, treated alike) and a parameter
  vector `p` of 544 numbers: two layers, each a 16 × 16 weight matrix laid out row-major (entry (d, e) at
  position 16·d + e) followed by a bias of 16 numbers; layer one starts at position 0, layer two at 272.
  A layer sends `x` to `e ↦ max (∑ d, x d · W d e + b e) 0`; the network is layer two after layer one.
  All arithmetic is on the extended reals, where addition is commutative and associative and `0` is its
  unit: that is all the comparison of the two programs uses, so no finiteness of the inputs is needed.
-/
import Idealize.ShloMosaic.PureOps.Ideal
import Idealize.ShloMosaic.PureOps.Ideal.Laws
import Idealize.ShloMosaic.Lib.ValueIdx

noncomputable section

namespace Cert.SampleNet

open Idealize.ShloMosaic Idealize.ShloMosaic.ValueIdx

/-- Where a layer that starts at `off` keeps weight (d, e): row-major in a 16 × 16 matrix. -/
abbrev wPos (off : Nat) (hoff : off + 272 ≤ 544) (d e : Fin 16) : Fin 544 :=
  ⟨off + (16 * d.val + e.val), by have := d.isLt; have := e.isLt; omega⟩

/-- Where it keeps bias e: right after the 256 weights. -/
abbrev bPos (off : Nat) (hoff : off + 272 ≤ 544) (e : Fin 16) : Fin 544 :=
  ⟨off + 256 + e.val, by have := e.isLt; omega⟩

/-- One layer of one sample: the row times the weight matrix, plus the bias, clipped below at zero. -/
def layer (off : Nat) (hoff : off + 272 ≤ 544) (x : Fin 16 → EReal) (p : Fin 544 → EReal) (e : Fin 16) : EReal :=
  max ((∑ d : Fin 16, x d * p (wPos off hoff d e)) + p (bPos off hoff e)) 0

/-- The two layers, the second reading the first's output. -/
def net (x : Fin 16 → EReal) (p : Fin 544 → EReal) (e : Fin 16) : EReal :=
  layer 272 (by decide) (layer 0 (by decide) x p) p e

/-- Sixteen terms added one after another onto zero are their sum: `0` is the unit of addition and the
    sum over `Fin 16` peels its last term sixteen times. -/
theorem add_up_sixteen (t : Fin 16 → EReal) :
    0 + t ⟨0, by decide⟩ + t ⟨1, by decide⟩ + t ⟨2, by decide⟩ + t ⟨3, by decide⟩ + t ⟨4, by decide⟩ + t ⟨5, by decide⟩
        + t ⟨6, by decide⟩ + t ⟨7, by decide⟩ + t ⟨8, by decide⟩ + t ⟨9, by decide⟩ + t ⟨10, by decide⟩ + t ⟨11, by decide⟩
        + t ⟨12, by decide⟩ + t ⟨13, by decide⟩ + t ⟨14, by decide⟩ + t ⟨15, by decide⟩
      = ∑ d : Fin 16, t d := by
  rw [zero_add]
  simp only [Fin.sum_univ_castSucc, Fin.sum_univ_zero, zero_add]
  rfl

/-- The whole result array of the network, sample-major: entry (s, n, e) from row (s, n, ·) of the rows array and
    row s of the parameter array. -/
def result (rows : (⟨3, ![16384, 50, 16]⟩ : Shape).Idx → EReal) (params : (⟨2, ![16384, 544]⟩ : Shape).Idx → EReal) :
    (⟨3, ![16384, 50, 16]⟩ : Shape).Idx → EReal :=
  fun j => net (fun d => rows (ix3 (j 0) (j 1) d)) (fun r => params (ix2 (j 0) r)) (j 2)

/-- The same with the sample axis last (the layout the kernel works in): entry (n, e, s) from column s. -/
def resultLanes (rows : (⟨3, ![50, 16, 16384]⟩ : Shape).Idx → EReal) (params : (⟨2, ![544, 16384]⟩ : Shape).Idx → EReal) :
    (⟨3, ![50, 16, 16384]⟩ : Shape).Idx → EReal :=
  fun j => net (fun d => rows (ix3 (j 0) d (j 2))) (fun r => params (ix2 r (j 2))) (j 1)

end Cert.SampleNet

end
-- ==== Proof.BlockValue.lean ====
/-
  What the kernel's body leaves in its output block, entry by entry.

  A block holds 1024 samples side by side on its last axis: `x` is the rows block (row n, feature d, lane l) and `q`
  the parameter block (position r, lane l). The body cuts the 16 × 16 weights of a layer out of `q` (position
  16·d + e of the layer's stretch is weight (d, e)), multiplies feature d of every row by weight row d, adds the
  sixteen products one after another onto zero, adds the bias and clips at zero; then does it again with the second
  layer's stretch on what the first left. Read at (n, e, l) that is `net` of row (n, ·, l) and parameter column l.
-/
import proofs.«106897_j51539607710_1_alg».proof.Proof.Gen.KernelIdeal.Frame
import proofs.«106897_j51539607710_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.BlockValue

open Cert.KernelIdeal Cert.KernelIdeal.Gen Idealize.ShloMosaic Idealize.ShloMosaic.ValueIdx Cert.SampleNet

/-! ## The layout steps, each read at an index -/

/-- Feature k of every row, spread over the 16 outputs, times weight row k, spread over the 50 rows: at (n, e, l)
    the product of feature k of row n and weight (k, e), both in lane l. -/
theorem product_apply (a : FVec Ideal S50x16x1024 .f32) (W : FVec Ideal S16x16x1024 .f32) (k : Nat) (hk : k < 16)
    (hs1 : S50x16x1024.Slices ![0, k, 0] S50x1x1024) (hs2 : S16x16x1024.Slices ![k, 0, 0] S1x16x1024)
    (hb1 : S50x1x1024.Broadcasts S50x16x1024) (hb2 : S1x16x1024.Broadcasts S50x16x1024)
    (n : Fin 50) (e : Fin 16) (l : Fin 1024) :
    mulf (broadcastTo S50x16x1024 (extractStridedSlice S50x1x1024 ![0, k, 0] a hs1) hb1)
         (broadcastTo S50x16x1024 (extractStridedSlice S1x16x1024 ![k, 0, 0] W hs2) hb2) (ix3 n e l)
      = a (ix3 n ⟨k, hk⟩ l) * W (ix3 ⟨k, hk⟩ e l) := by
  have h1 : broadcastTo S50x16x1024 (extractStridedSlice S50x1x1024 ![0, k, 0] a hs1) hb1 (ix3 n e l) = a (ix3 n ⟨k, hk⟩ l) :=
    (broadcastTo_apply _ hb1 (ix3 n e l) (ix3 n (0 : Fin 1) l) (fun ax => match ax with
      | ⟨0, _⟩ => by show n.val = if (50 : Nat) = 1 then 0 else n.val; rw [if_neg (by decide)]
      | ⟨1, _⟩ => by show 0 = if (1 : Nat) = 1 then 0 else e.val; rw [if_pos rfl]
      | ⟨2, _⟩ => by show l.val = if (1024 : Nat) = 1 then 0 else l.val; rw [if_neg (by decide)])).trans
    (extractStridedSlice_apply _ a hs1 (ix3 n (0 : Fin 1) l) (ix3 n ⟨k, hk⟩ l) (fun ax => match ax with
      | ⟨0, _⟩ => by show n.val = 0 + n.val; omega
      | ⟨1, _⟩ => by show k = k + 0; omega
      | ⟨2, _⟩ => by show l.val = 0 + l.val; omega))
  have h2 : broadcastTo S50x16x1024 (extractStridedSlice S1x16x1024 ![k, 0, 0] W hs2) hb2 (ix3 n e l) = W (ix3 ⟨k, hk⟩ e l) :=
    (broadcastTo_apply _ hb2 (ix3 n e l) (ix3 (0 : Fin 1) e l) (fun ax => match ax with
      | ⟨0, _⟩ => by show 0 = if (1 : Nat) = 1 then 0 else n.val; rw [if_pos rfl]
      | ⟨1, _⟩ => by show e.val = if (16 : Nat) = 1 then 0 else e.val; rw [if_neg (by decide)]
      | ⟨2, _⟩ => by show l.val = if (1024 : Nat) = 1 then 0 else l.val; rw [if_neg (by decide)])).trans
    (extractStridedSlice_apply _ W hs2 (ix3 (0 : Fin 1) e l) (ix3 ⟨k, hk⟩ e l) (fun ax => match ax with
      | ⟨0, _⟩ => by show k = k + 0; omega
      | ⟨1, _⟩ => by show e.val = 0 + e.val; omega
      | ⟨2, _⟩ => by show l.val = 0 + l.val; omega))
  rw [mulf_apply, h1, h2]

/-- The 256 weight positions of a layer's stretch recast as a 16 × 16 matrix: weight (d, e) is position 16·d + e. -/
theorem weights_apply (w : Vec Ideal S256x1024 .f32) (h2 : S256x1024.ShapeCasts S16x16x1024)
    (d e : Fin 16) (l : Fin 1024) :
    shapeCast S16x16x1024 w h2 (ix3 d e l)
      = w (ix2 (⟨16 * d.val + e.val, by have := d.isLt; have := e.isLt; omega⟩ : Fin 256) l) := by
  exact shapeCast_apply w h2 (ix3 d e l) _ (by
    rewrite [Shape.rowMajor_val_two, Shape.rowMajor_val_three]
    show (16 * d.val + e.val) * 1024 + l.val = (d.val * 16 + e.val) * 1024 + l.val
    omega)

/-- The 16 biases as one row, spread over the 50 rows: at (n, e, l) bias e in lane l. -/
theorem bias_apply (bb : Vec Ideal S16x1024 .f32) (h1 : S16x1024.ShapeCasts S16x1024) (h2 : S16x1024.ShapeCasts S1x16x1024)
    (hb : S1x16x1024.Broadcasts S50x16x1024) (n : Fin 50) (e : Fin 16) (l : Fin 1024) :
    broadcastTo S50x16x1024 (shapeCast S1x16x1024 (shapeCast S16x1024 bb h1) h2) hb (ix3 n e l) = bb (ix2 e l) := by
  rw [shapeCast_self]
  exact (broadcastTo_apply _ hb (ix3 n e l) (ix3 (0 : Fin 1) e l) (fun ax => match ax with
      | ⟨0, _⟩ => by show 0 = if (1 : Nat) = 1 then 0 else n.val; rw [if_pos rfl]
      | ⟨1, _⟩ => by show e.val = if (16 : Nat) = 1 then 0 else e.val; rw [if_neg (by decide)]
      | ⟨2, _⟩ => by show l.val = if (1024 : Nat) = 1 then 0 else l.val; rw [if_neg (by decide)])).trans
    (shapeCast_apply bb h2 (ix3 (0 : Fin 1) e l) (ix2 e l) (by
      rewrite [Shape.rowMajor_val_two, Shape.rowMajor_val_three]
      show e.val * 1024 + l.val = (0 * 16 + e.val) * 1024 + l.val
      omega))

/-! ## One layer of the body at an index

Stated over the vector a layer reads (`a`), its 256 weight positions (`w`) and its 16 biases (`bb`). -/

/-- The layer's value at (n, e, l) in the specification's shape: the sum over features, the bias, the clip. -/
def layerAt (a : FVec Ideal S50x16x1024 .f32) (w : Vec Ideal S256x1024 .f32) (bb : Vec Ideal S16x1024 .f32)
    (n : Fin 50) (e : Fin 16) (l : Fin 1024) : EReal :=
  max ((∑ d : Fin 16, a (ix3 n d l) * w (ix2 (⟨16 * d.val + e.val, by have := d.isLt; have := e.isLt; omega⟩ : Fin 256) l)) + bb (ix2 e l)) 0

/-- The first layer as the body computes it (its sixteen products added in two stretches, the cut after the seventh). -/
theorem first_layer_apply (a : Vec Ideal S50x16x1024 .f32) (w : Vec Ideal S256x1024 .f32) (bb : Vec Ideal S16x1024 .f32)
    (n : Fin 50) (e : Fin 16) (l : Fin 1024) :
    k0_pay6 (k0_pay1 a) (k0_pay2 w) (k0_pay3 bb) (k0_pay4 a w) (k0_pay5 a) (ix3 n e l) = layerAt a w bb n e l := by
  unfold k0_pay6 k0_pay4 k0_pay5
  dsimp only
  simp only [maximumf_apply, addf_apply, broadcast_apply, Ideal.ofBits_def, Ideal.ofBits_zero_f32]
  rw [product_apply (k0_pay1 a) (k0_pay2 w) 0 (by decide) _ _ _ _ n e l,
    product_apply (k0_pay1 a) (k0_pay2 w) 1 (by decide) _ _ _ _ n e l,
    product_apply (k0_pay1 a) (k0_pay2 w) 2 (by decide) _ _ _ _ n e l,
    product_apply (k0_pay1 a) (k0_pay2 w) 3 (by decide) _ _ _ _ n e l,
    product_apply (k0_pay1 a) (k0_pay2 w) 4 (by decide) _ _ _ _ n e l,
    product_apply (k0_pay1 a) (k0_pay2 w) 5 (by decide) _ _ _ _ n e l,
    product_apply (k0_pay1 a) (k0_pay2 w) 6 (by decide) _ _ _ _ n e l,
    product_apply (k0_pay1 a) (k0_pay2 w) 7 (by decide) _ _ _ _ n e l,
    product_apply (k0_pay1 a) (k0_pay2 w) 8 (by decide) _ _ _ _ n e l,
    product_apply (k0_pay1 a) (k0_pay2 w) 9 (by decide) _ _ _ _ n e l,
    product_apply (k0_pay1 a) (k0_pay2 w) 10 (by decide) _ _ _ _ n e l,
    product_apply (k0_pay1 a) (k0_pay2 w) 11 (by decide) _ _ _ _ n e l,
    product_apply (k0_pay1 a) (k0_pay2 w) 12 (by decide) _ _ _ _ n e l,
    product_apply (k0_pay1 a) (k0_pay2 w) 13 (by decide) _ _ _ _ n e l,
    product_apply (k0_pay1 a) (k0_pay2 w) 14 (by decide) _ _ _ _ n e l,
    product_apply (k0_pay1 a) (k0_pay2 w) 15 (by decide) _ _ _ _ n e l]
  unfold k0_pay3 k0_pay2 k0_pay1
  dsimp only
  rw [bias_apply]
  simp only [shapeCast_self]
  rw [weights_apply w _ ⟨0, by decide⟩ e l,
    weights_apply w _ ⟨1, by decide⟩ e l,
    weights_apply w _ ⟨2, by decide⟩ e l,
    weights_apply w _ ⟨3, by decide⟩ e l,
    weights_apply w _ ⟨4, by decide⟩ e l,
    weights_apply w _ ⟨5, by decide⟩ e l,
    weights_apply w _ ⟨6, by decide⟩ e l,
    weights_apply w _ ⟨7, by decide⟩ e l,
    weights_apply w _ ⟨8, by decide⟩ e l,
    weights_apply w _ ⟨9, by decide⟩ e l,
    weights_apply w _ ⟨10, by decide⟩ e l,
    weights_apply w _ ⟨11, by decide⟩ e l,
    weights_apply w _ ⟨12, by decide⟩ e l,
    weights_apply w _ ⟨13, by decide⟩ e l,
    weights_apply w _ ⟨14, by decide⟩ e l,
    weights_apply w _ ⟨15, by decide⟩ e l]
  unfold layerAt
  rw [← add_up_sixteen (fun d => a (ix3 n d l) * w (ix2 (⟨16 * d.val + e.val, by have := d.isLt; have := e.isLt; omega⟩ : Fin 256) l))]

/-- The second layer as the body computes it (the cut falls after the eighth product; what it reads is the first
    layer's output `h`, not a loaded block). -/
theorem second_layer_apply (h : FVec Ideal S50x16x1024 .f32) (w : Vec Ideal S256x1024 .f32) (bb : Vec Ideal S16x1024 .f32)
    (n : Fin 50) (e : Fin 16) (l : Fin 1024) :
    k0_pay12 h (k0_pay7 w) (k0_pay8 bb) (k0_pay9 h w) (k0_pay10 h) (k0_pay11 w) (ix3 n e l) = layerAt h w bb n e l := by
  unfold k0_pay12 k0_pay9 k0_pay10 k0_pay11
  dsimp only
  simp only [maximumf_apply, addf_apply, broadcast_apply, Ideal.ofBits_def, Ideal.ofBits_zero_f32]
  rw [product_apply h (k0_pay7 w) 0 (by decide) _ _ _ _ n e l,
    product_apply h (k0_pay7 w) 1 (by decide) _ _ _ _ n e l,
    product_apply h (k0_pay7 w) 2 (by decide) _ _ _ _ n e l,
    product_apply h (k0_pay7 w) 3 (by decide) _ _ _ _ n e l,
    product_apply h (k0_pay7 w) 4 (by decide) _ _ _ _ n e l,
    product_apply h (k0_pay7 w) 5 (by decide) _ _ _ _ n e l,
    product_apply h (k0_pay7 w) 6 (by decide) _ _ _ _ n e l,
    product_apply h (k0_pay7 w) 7 (by decide) _ _ _ _ n e l,
    product_apply h (k0_pay7 w) 8 (by decide) _ _ _ _ n e l,
    product_apply h (k0_pay7 w) 9 (by decide) _ _ _ _ n e l,
    product_apply h (k0_pay7 w) 10 (by decide) _ _ _ _ n e l,
    product_apply h (k0_pay7 w) 11 (by decide) _ _ _ _ n e l,
    product_apply h (k0_pay7 w) 12 (by decide) _ _ _ _ n e l,
    product_apply h (k0_pay7 w) 13 (by decide) _ _ _ _ n e l,
    product_apply h (k0_pay7 w) 14 (by decide) _ _ _ _ n e l,
    product_apply h (k0_pay7 w) 15 (by decide) _ _ _ _ n e l]
  unfold k0_pay8 k0_pay7
  dsimp only
  rw [bias_apply]
  simp only [shapeCast_self]
  rw [weights_apply w _ ⟨0, by decide⟩ e l,
    weights_apply w _ ⟨1, by decide⟩ e l,
    weights_apply w _ ⟨2, by decide⟩ e l,
    weights_apply w _ ⟨3, by decide⟩ e l,
    weights_apply w _ ⟨4, by decide⟩ e l,
    weights_apply w _ ⟨5, by decide⟩ e l,
    weights_apply w _ ⟨6, by decide⟩ e l,
    weights_apply w _ ⟨7, by decide⟩ e l,
    weights_apply w _ ⟨8, by decide⟩ e l,
    weights_apply w _ ⟨9, by decide⟩ e l,
    weights_apply w _ ⟨10, by decide⟩ e l,
    weights_apply w _ ⟨11, by decide⟩ e l,
    weights_apply w _ ⟨12, by decide⟩ e l,
    weights_apply w _ ⟨13, by decide⟩ e l,
    weights_apply w _ ⟨14, by decide⟩ e l,
    weights_apply w _ ⟨15, by decide⟩ e l]
  unfold layerAt
  rw [← add_up_sixteen (fun d => h (ix3 n d l) * w (ix2 (⟨16 * d.val + e.val, by have := d.isLt; have := e.isLt; omega⟩ : Fin 256) l))]

/-! ## The loads: a stretch of parameter positions cut out of the parameter block -/

/-- A load of `R` positions starting at position `o`, all lanes: entry (r, l) is the block's entry (o + r, l). -/
theorem load_positions_apply (q : Vec Ideal S544x1024 .f32) (o R : Nat)
    (inb : ∀ a, (![o, 0] : Fin 2 → Nat) a + (⟨2, ![R, 1024]⟩ : Shape).size a ≤ S544x1024.size a)
    (r : Fin R) (l : Fin 1024) (hr : o + r.val < 544) :
    View.ld q (Rect.unit (s := S544x1024) ![o, 0] (⟨2, ![R, 1024]⟩ : Shape).size inb) (ix2 r l) = q (ix2 (⟨o + r.val, hr⟩ : Fin 544) l) := by
  show q _ = q _
  refine congrArg q (funext fun a => Fin.ext ?_)
  match a with
  | ⟨0, _⟩ => show o + 1 * r.val = o + r.val; omega
  | ⟨1, _⟩ => show 0 + 1 * l.val = l.val; omega

theorem zeros3 : (![0, 0, 0] : Fin 3 → Nat) = fun _ => 0 := funext fun a => by fin_cases a <;> rfl

/-! ## The block -/

/-- The output block at (n, e, l): the two-layer network of row n's sixteen features and the 544 parameters, all
    read in lane l. -/
theorem block_apply (x : Vec Ideal S50x16x1024 .f32) (q : Vec Ideal S544x1024 .f32) (n : Fin 50) (e : Fin 16) (l : Fin 1024) :
    out0_2 x q (ix3 n e l) = net (fun d => x (ix3 n d l)) (fun r => q (ix2 r l)) e := by
  unfold out0_2
  rw [View.canon_unit_zero zeros3]
  simp only [View.ld_unit_zero (S := S50x16x1024) zeros3]
  refine (second_layer_apply _ _ _ n e l).trans ?_
  unfold layerAt net
  simp only [layer]
  rw [load_positions_apply q 528 16 _ e l (by have := e.isLt; omega)]
  refine congrArg (fun s => max (s + q (ix2 (⟨528 + e.val, by have := e.isLt; omega⟩ : Fin 544) l)) 0) (Finset.sum_congr rfl fun d _ => ?_)
  rw [load_positions_apply q 272 256 _ _ l (by have := d.isLt; have := e.isLt; show 272 + (16 * d.val + e.val) < 544; omega), first_layer_apply]
  unfold layerAt
  rw [load_positions_apply q 256 16 _ d l (by have := d.isLt; omega)]
  refine congrArg (fun s => max (s + q (ix2 (⟨256 + d.val, by have := d.isLt; omega⟩ : Fin 544) l)) 0 * q (ix2 (⟨272 + (16 * d.val + e.val), by have := d.isLt; have := e.isLt; omega⟩ : Fin 544) l)) (Finset.sum_congr rfl fun d' _ => ?_)
  rw [load_positions_apply q 0 256 _ _ l (by have := d'.isLt; have := d.isLt; show 0 + (16 * d'.val + d.val) < 544; omega)]

end Cert.KernelIdeal.BlockValue

end
-- ==== Proof.ArrayValue.lean ====
/-
  From the body's block to the program's result.

  The launch hands grid point t the columns 1024·t … 1024·t + 1023 of the rows array (row n, feature d, sample s)
  and of the parameter array (position r, sample s), both with the sample axis last, and writes the body's block
  back to the same columns of the output array. The sixteen points' column ranges tile the 16384 samples, so the
  output array is, entry by entry, the network of the sample's column. Around the launch the program only moves
  axes: before it, the sample axis of both arguments is moved last; after it, the sample axis of the output is
  moved first again. Composed, entry (s, n, e) of the result is the network of row (s, n, ·) and parameter row s.
-/
import proofs.«106897_j51539607710_1_alg».proof.Proof.Gen.KernelIdeal.Frame
import proofs.«106897_j51539607710_1_alg».proof.Proof.BlockValue
import Idealize.ShloMosaic.Lib.Pipeline.Value
import Idealize.ShloMosaic.Lib.ValueIdx
import Idealize.ShloMosaic.Lib.StableHlo.Run

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx Cert.SampleNet Cert.KernelIdeal.BlockValue
open Idealize.ShloMosaic.Pipeline (Dat)

variable (m : (ℓ : Loc nD τ sig) → Buf (Elt Ideal) ℓ) (ρ : Dev nD → PrngReg)

/-! ## The arrays the launch reads, and their blocks, at their literal types -/

/-- The rows array as the launch finds it: sample axis last. -/
abbrev rowsArr (c : Dev nD) : Vec Ideal S50x16x16384 .f32 := V m c main_v0
/-- The parameter array as the launch finds it: sample axis last. -/
abbrev parsArr (c : Dev nD) : Vec Ideal S544x16384 .f32 := V m c main_v1
/-- Point t's block of the rows array. -/
abbrev rowsBlk (c : Dev nD) (t : Fin cfg0.N) : Vec Ideal S50x16x1024 .f32 := iblk m c 0 t
/-- Point t's block of the parameter array. -/
abbrev parsBlk (c : Dev nD) (t : Fin cfg0.N) : Vec Ideal S544x1024 .f32 := iblk m c 1 t

/-- The printed index maps over the sixteen points: every window's block index is the point's number on the sample
    axis and zero on the others. -/
theorem index_facts : ∀ t : Fin cfg0.N,
    win0_0.index t (0 : Fin 3) = 0 ∧ win0_0.index t (1 : Fin 3) = 0 ∧ win0_0.index t (2 : Fin 3) = t.val
    ∧ win0_1.index t (0 : Fin 2) = 0 ∧ win0_1.index t (1 : Fin 2) = t.val
    ∧ win0_2.index t (0 : Fin 3) = 0 ∧ win0_2.index t (1 : Fin 3) = 0 ∧ win0_2.index t (2 : Fin 3) = t.val :=
  (by decide +kernel : ∀ t : Fin grid0.N, _)

theorem point_lt (t : Fin cfg0.N) : t.val < 16 := by
  have h := t.isLt
  have e : cfg0.N = 16 := N_0
  omega

/-- Lane l of point t is sample 1024·t + l. -/
abbrev sampleOf (t : Fin cfg0.N) (l : Fin 1024) : Fin 16384 :=
  ⟨1024 * t.val + l.val, by have := point_lt t; have := l.isLt; omega⟩

/-- The rows block is the rows array at the point's samples. -/
theorem rowsBlk_apply (c : Dev nD) (t : Fin cfg0.N) (n : Fin 50) (d : Fin 16) (l : Fin 1024) :
    rowsBlk m c t (ix3 n d l) = rowsArr m c (ix3 n d (sampleOf t l)) := by
  obtain ⟨e0, e1, e2, -⟩ := index_facts t
  show V m c main_v0 (((cfg0.win 0).blk t).view.emb (ix3 n d l)) = V m c main_v0 (ix3 n d (sampleOf t l))
  refine congrArg (V m c main_v0) (funext fun a => Fin.ext ?_)
  match a with
  | ⟨0, _⟩ => show win0_0.index t (0 : Fin 3) * 50 + 1 * n.val = n.val; omega
  | ⟨1, _⟩ => show win0_0.index t (1 : Fin 3) * 16 + 1 * d.val = d.val; omega
  | ⟨2, _⟩ => show win0_0.index t (2 : Fin 3) * 1024 + 1 * l.val = 1024 * t.val + l.val; omega

/-- The parameter block is the parameter array at the point's samples. -/
theorem parsBlk_apply (c : Dev nD) (t : Fin cfg0.N) (r : Fin 544) (l : Fin 1024) :
    parsBlk m c t (ix2 r l) = parsArr m c (ix2 r (sampleOf t l)) := by
  obtain ⟨-, -, -, e3, e4, -⟩ := index_facts t
  show V m c main_v1 (((cfg0.win 1).blk t).view.emb (ix2 r l)) = V m c main_v1 (ix2 r (sampleOf t l))
  refine congrArg (V m c main_v1) (funext fun a => Fin.ext ?_)
  match a with
  | ⟨0, _⟩ => show win0_1.index t (0 : Fin 2) * 544 + 1 * r.val = r.val; omega
  | ⟨1, _⟩ => show win0_1.index t (1 : Fin 2) * 1024 + 1 * l.val = 1024 * t.val + l.val; omega

/-! ## What a point writes back, and the output array -/

/-- Point t writes back its columns of the lane-layout result. -/
theorem flushed_eq (c : Dev nD) (t : Fin cfg0.N) :
    (dats m 0 c).flushed 2 t = ((cfg0.win 2).blk t).view.read (Elt Ideal) (resultLanes (rowsArr m c) (parsArr m c)) := by
  show (cfg0.win 2).cut (grid0.coords t) ((dats m 0 c).after 2 t) = _
  rw [after0_2]
  obtain ⟨-, -, -, -, -, e5, e6, e7⟩ := index_facts t
  funext y
  obtain ⟨n, e, l, rfl⟩ : ∃ (n : Fin 50) (e : Fin 16) (l : Fin 1024), y = ix3 n e l := ⟨y 0, y 1, y 2, eq_ix3 y⟩
  have hemb : ((cfg0.win 2).blk t).view.emb (ix3 n e l) = ix3 n e (sampleOf t l) := by
    funext a; apply Fin.ext
    match a with
    | ⟨0, _⟩ => show win0_2.index t (0 : Fin 3) * 50 + 1 * n.val = n.val; omega
    | ⟨1, _⟩ => show win0_2.index t (1 : Fin 3) * 16 + 1 * e.val = e.val; omega
    | ⟨2, _⟩ => show win0_2.index t (2 : Fin 3) * 1024 + 1 * l.val = 1024 * t.val + l.val; omega
  show out0_2 (rowsBlk m c t) (parsBlk m c t) (ix3 n e l) = resultLanes (rowsArr m c) (parsArr m c) (((cfg0.win 2).blk t).view.emb (ix3 n e l))
  rw [hemb]
  refine (block_apply (rowsBlk m c t) (parsBlk m c t) n e l).trans ?_
  show net _ _ e = net (fun d => rowsArr m c (ix3 n d (sampleOf t l))) (fun r => parsArr m c (ix2 r (sampleOf t l))) e
  congr 1
  · funext d; exact rowsBlk_apply m c t n d l
  · funext r; exact parsBlk_apply m c t r l

/-- An index of the output array is in point t's block iff each coordinate is in the block's range on its axis. -/
theorem mem_blk (t : Fin cfg0.N) (i : S50x16x16384.Idx) :
    i ∈ ((cfg0.win 2).blk t).view.set ↔ ∀ a : Fin 3, win0_2.index t a * S50x16x1024.size a ≤ (i a).val ∧ (i a).val < win0_2.index t a * S50x16x1024.size a + S50x16x1024.size a := by
  show i ∈ ((View.whole main_v2).slice (win0_2.rect t)).set ↔ _
  rw [View.set_slice_whole, Rect.mem_set_unit]
  exact Iff.rfl

/-- Every index of the output array is in some point's block: sample s belongs to point s / 1024. -/
theorem cover (i : S50x16x16384.Idx) : ∃ t : Fin cfg0.N, (cfg0.win 2).flush t = true ∧ i ∈ ((cfg0.win 2).blk t).view.set := by
  have h0 : (i 0).val < 50 := (i 0).isLt
  have h1 : (i 1).val < 16 := (i 1).isLt
  have h2 : (i 2).val < 16384 := (i 2).isLt
  have hN : cfg0.N = 16 := N_0
  let t : Fin cfg0.N := ⟨(i 2).val / 1024, by omega⟩
  obtain ⟨-, -, -, -, -, e5, e6, e7⟩ := index_facts t
  have e7' : win0_2.index t (2 : Fin 3) = (i 2).val / 1024 := e7
  refine ⟨t, flush0_2 t, ?_⟩
  rw [mem_blk]
  intro a
  match a with
  | ⟨0, _⟩ => show win0_2.index t (0 : Fin 3) * 50 ≤ (i 0).val ∧ (i 0).val < win0_2.index t (0 : Fin 3) * 50 + 50; omega
  | ⟨1, _⟩ => show win0_2.index t (1 : Fin 3) * 16 ≤ (i 1).val ∧ (i 1).val < win0_2.index t (1 : Fin 3) * 16 + 16; omega
  | ⟨2, _⟩ => show win0_2.index t (2 : Fin 3) * 1024 ≤ (i 2).val ∧ (i 2).val < win0_2.index t (2 : Fin 3) * 1024 + 1024; omega

/-- The output array after the launch is the lane-layout result of the two arrays the launch read. -/
theorem output_array (c : Dev nD) : (dats m 0 c).arrAt 2 cfg0.N = resultLanes (rowsArr m c) (parsArr m c) :=
  (dats m 0 c).arrAt_eq_of_cover 2 _ (fun t _ => flushed_eq m c t) cover

end Cert.KernelIdeal.ArrayValue

end
-- ==== Proof.KernelRun.lean ====
/-
  The kernel program's run, with its result named.

  Before the launch the program moves the sample axis of both arguments last; after it, it moves the sample axis of
  the output array first. With the output array known entry by entry, the result at (s, n, e) is the network of row
  (s, n, ·) of the first argument and row s of the second: the specification's `result`.
-/
import proofs.«106897_j51539607710_1_alg».proof.Proof.Gen.KernelIdeal.Frame
import proofs.«106897_j51539607710_1_alg».proof.Proof.ArrayValue
import Idealize.ShloMosaic.Lib.Pipeline.Value
import Idealize.ShloMosaic.Lib.ValueIdx
import Idealize.ShloMosaic.Lib.StableHlo.Run

set_option maxRecDepth 16384

noncomputable section

namespace Cert.KernelIdeal.RunValue

open Cert.KernelIdeal Cert.KernelIdeal.Gen Idealize.ShloMosaic Idealize.ShloMosaic.TcCoe Idealize.SL.Sem
open Idealize.ShloMosaic.ValueIdx Cert.SampleNet Cert.KernelIdeal.ArrayValue
open Idealize.ShloMosaic.Pipeline (Dat)

variable (m : (ℓ : Loc nD τ sig) → Buf (Elt Ideal) ℓ) (ρ : Dev nD → PrngReg)

/-! ## Before the launch: the sample axis moved last -/

/-- The rows array the launch reads is the first argument with its axes cycled. -/
theorem rowsArr_eq (c : Dev nD) :
    rowsArr m c = transpose S50x16x16384 [1, 2, 0] (m ((c : Thread nD τ).loc main_arg0)) transposes_S16384x50x16_S50x16x16384_1_2_0 := by
  show StableHlo.after hostOps0 (fun b => m (c, b)) (Proc.devRef .tc main_v0) = _
  after_results

/-- The parameter array the launch reads is the second argument transposed. -/
theorem parsArr_eq (c : Dev nD) :
    parsArr m c = transpose S544x16384 [1, 0] (m ((c : Thread nD τ).loc main_arg1)) transposes_S16384x544_S544x16384_1_0 := by
  show StableHlo.after hostOps0 (fun b => m (c, b)) (Proc.devRef .tc main_v1) = _
  after_results

/-- Entry (n, d, s) of the rows array is entry (s, n, d) of the first argument. -/
theorem rowsArr_apply (c : Dev nD) (n : Fin 50) (d : Fin 16) (s : Fin 16384) :
    rowsArr m c (ix3 n d s) = m ((c : Thread nD τ).loc main_arg0) (ix3 s n d) := by
  rw [rowsArr_eq]
  exact transpose_apply _ _ _ (ix3 n d s) (ix3 s n d) (fun b => match b with
    | ⟨0, _⟩ => rfl
    | ⟨1, _⟩ => rfl
    | ⟨2, _⟩ => rfl)

/-- Entry (r, s) of the parameter array is entry (s, r) of the second argument. -/
theorem parsArr_apply (c : Dev nD) (r : Fin 544) (s : Fin 16384) :
    parsArr m c (ix2 r s) = m ((c : Thread nD τ).loc main_arg1) (ix2 s r) := by
  rw [parsArr_eq]
  exact transpose_apply _ _ _ (ix2 r s) (ix2 s r) (fun b => match b with
    | ⟨0, _⟩ => rfl
    | ⟨1, _⟩ => rfl)

/-! ## After the launch: the sample axis moved first -/

/-- What the program's result buffer holds after the run: the specification's result of the two arguments. -/
theorem result_eq (c : Dev nD) :
    Pipeline.afterTail₀ cfgs (dats m) 0 (V0 m) [hostOps1] c main_v3
      = result (m ((c : Thread nD τ).loc main_arg0)) (m ((c : Thread nD τ).loc main_arg1)) := by
  unfold Pipeline.afterTail₀
  show StableHlo.after hostOps1 _ (Proc.devRef .tc main_v3) = _
  after_results
  rw [show Pipeline.withArrays spec0 c (V0 m c) (fun w => (dats m 0 c).arrAt w cfg0.N) (Proc.devRef .tc main_v2)
      = resultLanes (rowsArr m c) (parsArr m c) from
    (Pipeline.withArrays_arr spec0 launch0.win.arr_inj c _ _ 2).trans (output_array m c)]
  funext i
  obtain ⟨s, n, e, rfl⟩ : ∃ (s : Fin 16384) (n : Fin 50) (e : Fin 16), i = ix3 s n e := ⟨i 0, i 1, i 2, eq_ix3 i⟩
  refine (transpose_apply _ _ _ (ix3 s n e) (ix3 n e s) (fun b => match b with
    | ⟨0, _⟩ => rfl
    | ⟨1, _⟩ => rfl
    | ⟨2, _⟩ => rfl)).trans ?_
  show net (fun d => rowsArr m c (ix3 n d s)) (fun r => parsArr m c (ix2 r s)) e
    = net (fun d => m ((c : Thread nD τ).loc main_arg0) (ix3 s n d)) (fun r => m ((c : Thread nD τ).loc main_arg1) (ix2 s r)) e
  congr 1
  · funext d; exact rowsArr_apply m c n d s
  · funext r; exact parsArr_apply m c r s

/-! ## The run -/

/-- Every weakly fair execution of the kernel program terminates with its result buffer at the specification's
    result of the two arguments, and the arguments unchanged. -/
theorem run : θ_run defs (onTc (τ := τ) (main (F := Ideal))) ⟨m, fun _ => 0, ρ⟩ fun r => ∀ c : Dev nD,
      r.2.mem ((c.tc : Thread nD τ).loc main_v3) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.RunValue

end
-- ==== Proof.RefValue.lean ====
/-
  The reference at an index is the network of the specification.

  The reference cuts each layer's 256 weights out of the sample's parameter row and reshapes them to 16 × 16
  (row-major: position 16·k + e is weight (k, e)), contracts the sample's rows with them over the feature axis,
  adds the layer's 16 biases (cut out right after the weights, spread over the 50 rows) and clips at zero; twice.
  Read at (s, n, e), stage by stage, that is `net` of row (s, n, ·) and parameter row s.
-/
import proofs.«106897_j51539607710_1_alg».proof.Proof.Gen.ReferenceIdeal.Read
import proofs.«106897_j51539607710_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx Cert.SampleNet

/-- After the first layer: entry (s, n, d) is layer one of row (s, n, ·) with sample s's parameters. -/
theorem first_layer_apply (x0 : (⟨S16384x50x16, .f32⟩ : BufTy).Contents (Elt Ideal)) (x1 : (⟨S16384x544, .f32⟩ : BufTy).Contents (Elt Ideal))
    (s : Fin 16384) (n : Fin 50) (d : Fin 16) :
    val_main_v7 (F := Ideal) x0 x1 (ix3 s n d)
      = layer 0 (by decide) (fun d' => x0 (ix3 s n d')) (fun r => x1 (ix2 s r)) d := by
  rw [val_main_v7_apply, val_main_v6_apply, val_main_v4_apply, val_main_v5_apply, val_main_v3_apply, val_main_v2_apply,
    val_main_call0_v0_apply, val_main_call0_cst_apply]
  simp only [Ideal.maximumf_def, Ideal.addf_def, Ideal.ofBits_def, Ideal.ofBits_zero_f32]
  unfold layer
  have hb : idx_main_v2 (idx_main_v3 (idx_main_v5 (ix3 s n d))) = ix2 s (bPos 0 (by decide) d) := by
    funext a; apply Fin.ext
    match a with
    | ⟨0, _⟩ => show ((s.val * 1 + 0) * 16 + d.val) / 16 = s.val; have := d.isLt; omega
    | ⟨1, _⟩ => show 256 + ((s.val * 1 + 0) * 16 + d.val) % 16 = 0 + 256 + d.val; have := d.isLt; omega
  rw [hb]
  refine congrArg (fun t => max (t + x1 (ix2 s (bPos 0 (by decide) d))) 0) (Finset.sum_congr rfl fun k _ => ?_)
  rw [val_main_v1_apply, val_main_v0_apply]
  have hl : lidx_main_v4 (ix3 s n d) k = ix3 s n k := by
    funext a; apply Fin.ext
    match a with
    | ⟨0, _⟩ => rfl
    | ⟨1, _⟩ => rfl
    | ⟨2, _⟩ => rfl
  have hr : idx_main_v0 (idx_main_v1 (ridx_main_v4 (ix3 s n d) k)) = ix2 s (wPos 0 (by decide) k d) := by
    funext a; apply Fin.ext
    match a with
    | ⟨0, _⟩ => show ((s.val * 16 + k.val) * 16 + d.val) / 256 = s.val; have := d.isLt; have := k.isLt; omega
    | ⟨1, _⟩ => show ((s.val * 16 + k.val) * 16 + d.val) % 256 = 0 + (16 * k.val + d.val); have := d.isLt; have := k.isLt; omega
  rw [hl, hr]

/-- The reference's result: entry (s, n, e) is the two-layer network of row (s, n, ·) with sample s's parameters. -/
theorem reference_is_result (x0 : (⟨S16384x50x16, .f32⟩ : BufTy).Contents (Elt Ideal)) (x1 : (⟨S16384x544, .f32⟩ : BufTy).Contents (Elt Ideal)) :
    val_main_v15 (F := Ideal) x0 x1 = result x0 x1 := by
  funext i
  obtain ⟨s, n, e, rfl⟩ : ∃ (s : Fin 16384) (n : Fin 50) (e : Fin 16), i = ix3 s n e := ⟨i 0, i 1, i 2, eq_ix3 i⟩
  rw [val_main_v15_apply, val_main_v14_apply, val_main_v12_apply, val_main_v13_apply, val_main_v11_apply, val_main_v10_apply,
    val_main_call1_v0_apply, val_main_call1_cst_apply]
  simp only [Ideal.maximumf_def, Ideal.addf_def, Ideal.ofBits_def, Ideal.ofBits_zero_f32]
  show _ = net (fun d => x0 (ix3 s n d)) (fun r => x1 (ix2 s r)) e
  unfold net
  rw [layer]
  have hb : idx_main_v10 (idx_main_v11 (idx_main_v13 (ix3 s n e))) = ix2 s (bPos 272 (by decide) e) := by
    funext a; apply Fin.ext
    match a with
    | ⟨0, _⟩ => show ((s.val * 1 + 0) * 16 + e.val) / 16 = s.val; have := e.isLt; omega
    | ⟨1, _⟩ => show 528 + ((s.val * 1 + 0) * 16 + e.val) % 16 = 272 + 256 + e.val; have := e.isLt; omega
  rw [hb]
  refine congrArg (fun t => max (t + x1 (ix2 s (bPos 272 (by decide) e))) 0) (Finset.sum_congr rfl fun k _ => ?_)
  rw [val_main_v9_apply, val_main_v8_apply]
  have hl : lidx_main_v12 (ix3 s n e) k = ix3 s n k := by
    funext a; apply Fin.ext
    match a with
    | ⟨0, _⟩ => rfl
    | ⟨1, _⟩ => rfl
    | ⟨2, _⟩ => rfl
  have hr : idx_main_v8 (idx_main_v9 (ridx_main_v12 (ix3 s n e) k)) = ix2 s (wPos 272 (by decide) k e) := by
    funext a; apply Fin.ext
    match a with
    | ⟨0, _⟩ => show ((s.val * 16 + k.val) * 16 + e.val) / 256 = s.val; have := e.isLt; have := k.isLt; omega
    | ⟨1, _⟩ => show 272 + ((s.val * 16 + k.val) * 16 + e.val) % 256 = 272 + (16 * k.val + e.val); have := e.isLt; have := k.isLt; omega
  rw [hl, hr, first_layer_apply]

end Cert.ReferenceIdeal.RefValue

end
-- ==== Proof.lean ====
/-
  A per-sample two-layer network, computed two ways, is one function on the extended reals.

  Each of 16384 samples has 50 rows of 16 features and its own 544 parameters: for each of two layers a 16 × 16
  weight matrix (row-major) and 16 biases. A layer sends a row x to e ↦ max (∑ d, x d · W d e + b e) 0.

  The reference contracts each sample's rows with its weight matrix (a batched product over the feature axis), adds
  the bias and clips, twice. The kernel first moves the sample axis last, so that 1024 samples lie side by side in a
  block; there it multiplies feature d of every row by weight row d for d = 0 … 15, adding the sixteen products one
  after another onto zero, adds the bias and clips, twice; and finally moves the sample axis first again.

  The two differ only in where the sample axis lies and in how the sum over d is bracketed; on the extended reals
  addition is commutative and associative with unit 0, so both are the sum over d, and the results agree entry by
  entry (Proof/Spec.lean states the function; Proof/BlockValue.lean, Proof/ArrayValue.lean and Proof/KernelRun.lean
  read the kernel program's result; Proof/RefValue.lean reads the reference's). No step uses that the inputs are
  finite. Each program's argument arrays end as they began; the idealized kernel is the kernel's own text read on
  the extended reals (no rewrite was applied), so there is nothing to preserve.
-/
import proofs.«106897_j51539607710_1_alg».proof.Defs
import proofs.«106897_j51539607710_1_alg».proof.Proof.Gen.Kernel
import proofs.«106897_j51539607710_1_alg».proof.Proof.Gen.Kernel.Skeleton
import proofs.«106897_j51539607710_1_alg».proof.Proof.Gen.Kernel.Launch
import proofs.«106897_j51539607710_1_alg».proof.Proof.Gen.Kernel.Points
import proofs.«106897_j51539607710_1_alg».proof.Proof.Gen.Kernel.Frame
import proofs.«106897_j51539607710_1_alg».proof.Proof.Gen.KernelIdeal
import proofs.«106897_j51539607710_1_alg».proof.Proof.Gen.KernelIdeal.Skeleton
import proofs.«106897_j51539607710_1_alg».proof.Proof.Gen.KernelIdeal.Launch
import proofs.«106897_j51539607710_1_alg».proof.Proof.Gen.KernelIdeal.Points
import proofs.«106897_j51539607710_1_alg».proof.Proof.Gen.KernelIdeal.Frame
import proofs.«106897_j51539607710_1_alg».proof.Proof.Gen.ReferenceIdeal
import proofs.«106897_j51539607710_1_alg».proof.Proof.Gen.Pre_finite_inputs
import proofs.«106897_j51539607710_1_alg».proof.Proof.Gen.ReferenceIdeal.Run
import proofs.«106897_j51539607710_1_alg».proof.Proof.Gen.ReferenceIdeal.Read
import proofs.«106897_j51539607710_1_alg».proof.Proof.KernelRun
import proofs.«106897_j51539607710_1_alg».proof.Proof.RefValue
import Idealize.ShloMosaic.Adequacy
import Idealize.ShloMosaic.Init

noncomputable section

namespace Cert.Proof

open Idealize.ShloMosaic Idealize.SL.Sem

/-- The word-level kernel program runs and leaves its arguments as they were. -/
theorem frame_kernel : Cert.frame_Kernel := fun m ρ _ => Cert.Kernel.Gen.frame m ρ

/-- So does the kernel program read on the extended reals. -/
theorem frame_kernel_ideal : Cert.frame_KernelIdeal := fun m ρ _ => Cert.KernelIdeal.Gen.frame m ρ

/-- And the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the two arguments both programs end with the network's result array: the kernel
    program by its run read through the launch, the reference by its stages read at an index. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v15_eq _ _).trans (Cert.ReferenceIdeal.RefValue.reference_is_result _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
